-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x11008 : Shape := ⟨3, ![2, 2048, 11008]⟩
abbrev S5636096 : Shape := ⟨1, ![5636096]⟩
abbrev S32768x8 : Shape := ⟨2, ![32768, 8]⟩
abbrev S4096x1 : Shape := ⟨2, ![4096, 1]⟩
abbrev S_ : Shape := ⟨0, ![]⟩

class Facts : Prop where
  bcast_S_S2x2048x11008 : S_.BroadcastsInDim S2x2048x11008 (![] : Fin 0 → Fin S2x2048x11008.rank)
  reducesTo_S2x2048x11008_S_d0_1_2 : S2x2048x11008.ReducesTo [0, 1, 2] S_
  h_S_ : 0 < S_.numel
  bcast_S_S32768x8 : S_.BroadcastsInDim S32768x8 (![] : Fin 0 → Fin S32768x8.rank)
  reducesTo_S32768x8_S_d0_1 : S32768x8.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S2x2048x11008 .f32) (main_arg1 : IVec S5636096 32) (main_arg2 : FVec F S32768x8 .f32) (main_arg3 : FVec F S4096x1 .f32) : IVec S_ 1 :=
  let main_v0 : FVec F S2x2048x11008 .f32 := Host.absf main_arg0
  let main_cst : FVec F S_ .f32 := constant S_ .f32 0x7F800000#32
  let main_v1 : FVec F S2x2048x11008 .f32 := broadcastInDim S2x2048x11008 ![] bcast_S_S2x2048x11008 main_cst
  let main_v2 : IVec S2x2048x11008 1 := cmpf .olt main_v0 main_v1
  let main_c : IVec S_ 1 := constantI S_ 1 1#1
  let main_v3 : IVec S_ 1 := (fun x v => Host.reduce IntOp.andi x v reducesTo_S2x2048x11008_S_d0_1_2 h_S_) main_v2 main_c
  let main_v4 : FVec F S32768x8 .f32 := Host.absf main_arg2
  let main_cst_0 : FVec F S_ .f32 := constant S_ .f32 0x7F800000#32
  let main_v5 : FVec F S32768x8 .f32 := broadcastInDim S32768x8 ![] bcast_S_S32768x8 main_cst_0
  let main_v6 : IVec S32768x8 1 := cmpf .olt main_v4 main_v5
  let main_c_1 : IVec S_ 1 := constantI S_ 1 1#1
  let main_v7 : IVec S_ 1 := (fun x v => Host.reduce IntOp.andi x v reducesTo_S32768x8_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S2x2048x11008 : Shape := ⟨3, ![2, 2048, 11008]⟩
abbrev S5636096 : Shape := ⟨1, ![5636096]⟩
abbrev S32768x8 : Shape := ⟨2, ![32768, 8]⟩
abbrev S4096x1 : Shape := ⟨2, ![4096, 1]⟩
abbrev S_ : Shape := ⟨0, ![]⟩
abbrev S5636096x1 : Shape := ⟨2, ![5636096, 1]⟩
abbrev S5636096x8 : Shape := ⟨2, ![5636096, 8]⟩
abbrev S4096x11008 : Shape := ⟨2, ![4096, 11008]⟩
abbrev S4096x4096 : Shape := ⟨2, ![4096, 4096]⟩
abbrev S1024x256 : Shape := ⟨2, ![1024, 256]⟩
abbrev S2048x256 : Shape := ⟨2, ![2048, 256]⟩
abbrev S1024x2048 : Shape := ⟨2, ![1024, 2048]⟩
abbrev S2x2048x4096 : Shape := ⟨3, ![2, 2048, 4096]⟩

abbrev nBuf : Space → Nat
  | .hbm => 21
  | .vmem => 7
  | .smem => 0
  | _ => 0

abbrev bufTy : (tb : Table) → Fin (tcTables nBuf tb) → BufTy
  | .hbm, ⟨0, _⟩ => ⟨S2x2048x11008, .f32⟩
  | .hbm, ⟨1, _⟩ => ⟨S5636096, .i32⟩
  | .hbm, ⟨2, _⟩ => ⟨S32768x8, .f32⟩
  | .hbm, ⟨3, _⟩ => ⟨S4096x1, .f32⟩
  | .hbm, ⟨4, _⟩ => ⟨S_, .i32⟩
  | .hbm, ⟨5, _⟩ => ⟨S5636096, .i32⟩
  | .hbm, ⟨6, _⟩ => ⟨S5636096, .i1⟩
  | .hbm, ⟨7, _⟩ => ⟨S_, .i32⟩
  | .hbm, ⟨8, _⟩ => ⟨S5636096, .i32⟩
  | .hbm, ⟨9, _⟩ => ⟨S5636096, .i32⟩
  | .hbm, ⟨10, _⟩ => ⟨S5636096, .i32⟩
  | .hbm, ⟨11, _⟩ => ⟨S5636096x1, .i32⟩
  | .hbm, ⟨12, _⟩ => ⟨S5636096x8, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x11008, .bf16⟩
  | .hbm, ⟨18, _⟩ => ⟨S4096x11008, .bf16⟩
  | .hbm, ⟨19, _⟩ => ⟨S4096x4096, .f32⟩
  | .hbm, ⟨20, _⟩ => ⟨S2x2048x4096, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 43], ![false, false, false]⟩

def k0_cond2 (i : grid0.Coords) : BitVec 1 :=
  let arg2 : BitVec 32 := BitVec.ofNat 32 (i 2).val
  let c42_i32 : BitVec 32 := 42#32
  let v13 : BitVec 1 := Scalar.cmpi .eq arg2 c42_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S5636096 : S_.BroadcastsInDim S5636096 (![] : Fin 0 → Fin S5636096.rank)
  bcast_S5636096_S5636096x1_0 : S5636096.BroadcastsInDim S5636096x1 (![0] : Fin 1 → Fin S5636096x1.rank)
  shapeCasts_S5636096x8_S4096x11008 : S5636096x8.ShapeCasts S4096x11008
  bcast_S4096x1_S4096x11008_0_1 : S4096x1.BroadcastsInDim S4096x11008 (![0, 1] : Fin 2 → Fin S4096x11008.rank)
  shapeCasts_S2x2048x11008_S4096x11008 : S2x2048x11008.ShapeCasts S4096x11008
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S4096x4096_S2x2048x4096 : S4096x4096.ShapeCasts S2x2048x4096
  gather_S32768x8_S5636096x1_S5636096x8_1_0_n_n_0_1_18_wf : GatherDims.WF S32768x8 S5636096x1 S5636096x8 [1] [0] [] [0] [] 1 ![1, 8]
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x11008.size a
  hwx0_0 : ∀ i : grid0.Coords, EltTy.bits .bf16 = 32 ∨ (Rect.block (s := S4096x11008) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x11008.size a
  hwx0_1 : ∀ i : grid0.Coords, EltTy.bits .bf16 = 32 ∨ (Rect.block (s := S4096x11008) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .f32 = 32 ∨ (Rect.block (s := S4096x4096) S1024x2048.size (cc0_transform_2 i) (hinb0_2 i)).WholeWords (EltTy.packing .f32)

variable [Facts₀]

def gather_S32768x8_S5636096x1_S5636096x8_1_0_n_n_0_1_18 : GatherDims S32768x8 S5636096x1 S5636096x8 where
  offsetDims := [1]
  collapsedSliceDims := [0]
  operandBatchingDims := []
  startIndicesBatchingDims := []
  startIndexMap := [0]
  indexVectorDim := 1
  sliceSizes := ![1, 8]
  wf := gather_S32768x8_S5636096x1_S5636096x8_1_0_n_n_0_1_18_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v11) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x2048x11008 : Shape := ⟨3, ![2, 2048, 11008]⟩
abbrev S5636096 : Shape := ⟨1, ![5636096]⟩
abbrev S32768x8 : Shape := ⟨2, ![32768, 8]⟩
abbrev S4096x1 : Shape := ⟨2, ![4096, 1]⟩
abbrev S_ : Shape := ⟨0, ![]⟩
abbrev S5636096x1 : Shape := ⟨2, ![5636096, 1]⟩
abbrev S5636096x8 : Shape := ⟨2, ![5636096, 8]⟩
abbrev S4096x11008 : Shape := ⟨2, ![4096, 11008]⟩
abbrev S2x2048x4096 : Shape := ⟨3, ![2, 2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x11008, .f32⟩
  | .hbm, ⟨1, _⟩ => ⟨S5636096, .i32⟩
  | .hbm, ⟨2, _⟩ => ⟨S32768x8, .f32⟩
  | .hbm, ⟨3, _⟩ => ⟨S4096x1, .f32⟩
  | .hbm, ⟨4, _⟩ => ⟨S_, .i32⟩
  | .hbm, ⟨5, _⟩ => ⟨S5636096, .i32⟩
  | .hbm, ⟨6, _⟩ => ⟨S5636096, .i1⟩
  | .hbm, ⟨7, _⟩ => ⟨S_, .i32⟩
  | .hbm, ⟨8, _⟩ => ⟨S5636096, .i32⟩
  | .hbm, ⟨9, _⟩ => ⟨S5636096, .i32⟩
  | .hbm, ⟨10, _⟩ => ⟨S5636096, .i32⟩
  | .hbm, ⟨11, _⟩ => ⟨S5636096x1, .i32⟩
  | .hbm, ⟨12, _⟩ => ⟨S5636096x8, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S2x2048x4096, .f32⟩
  | _, _ => ⟨S2x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S5636096 : S_.BroadcastsInDim S5636096 (![] : Fin 0 → Fin S5636096.rank)
  bcast_S5636096_S5636096x1_0 : S5636096.BroadcastsInDim S5636096x1 (![0] : Fin 1 → Fin S5636096x1.rank)
  shapeCasts_S5636096x8_S4096x11008 : S5636096x8.ShapeCasts S4096x11008
  bcast_S4096x1_S4096x11008_0_1 : S4096x1.BroadcastsInDim S4096x11008 (![0, 1] : Fin 2 → Fin S4096x11008.rank)
  gather_S32768x8_S5636096x1_S5636096x8_1_0_n_n_0_1_18_wf : GatherDims.WF S32768x8 S5636096x1 S5636096x8 [1] [0] [] [0] [] 1 ![1, 8]
  dot_S2x2048x11008_S4096x11008_S2x2048x4096_2_1_01_0_n_n_wf : DotDims.WF S2x2048x11008 S4096x11008 S2x2048x4096 [2] [1] [0, 1] [0] [] []

variable [Facts₀]

def gather_S32768x8_S5636096x1_S5636096x8_1_0_n_n_0_1_18 : GatherDims S32768x8 S5636096x1 S5636096x8 where
  offsetDims := [1]
  collapsedSliceDims := [0]
  operandBatchingDims := []
  startIndicesBatchingDims := []
  startIndexMap := [0]
  indexVectorDim := 1
  sliceSizes := ![1, 8]
  wf := gather_S32768x8_S5636096x1_S5636096x8_1_0_n_n_0_1_18_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.Pieces.lean ====
/-
  What one grid point leaves behind, as values. The body keeps a running total in its scratch buffer: at the first
  step of the contraction axis it clears the scratch and adds the step's block product to the cleared contents; at
  every later step it adds the block product to what the step before left; at the last step it also copies the
  total into the output block. Each of these is the body's one arithmetic term (the scratch contents, plus the
  product of the two input blocks) applied to the right starting contents.
-/
import proofs.«160336_j30021821399184_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc
open Cert.KernelIdeal Cert.KernelIdeal.Gen
variable {F : FTy → Type} [FloatOps F]

theorem hz : (![0, 0] : Fin 2 → Nat) = fun _ => 0 := funext fun a => by fin_cases a <;> rfl

/-- A middle step: the scratch ends at its earlier contents plus the block product. -/
theorem scratch_mid (c : Dev nD) (i : grid0.Coords) (a3 : Memref sig .tc .vmem S1024x256 .bf16) (h3 : a3.IsWhole)
    (a4 : Memref sig .tc .vmem S2048x256 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : ¬cond0_1 i)
    (x0 : Vec F S1024x256 .bf16) (x1 : Vec F S2048x256 .bf16) (xs0 : Vec F S1024x2048 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x2048) hz,
    View.ld_unit_zero (S := S1024x256) hz, View.ld_unit_zero (S := S2048x256) hz]

/-- The last step: the scratch again ends at its earlier contents plus the block product … -/
theorem scratch_last (c : Dev nD) (i : grid0.Coords) (a3 : Memref sig .tc .vmem S1024x256 .bf16) (h3 : a3.IsWhole)
    (a4 : Memref sig .tc .vmem S2048x256 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x256 .bf16) (x1 : Vec F S2048x256 .bf16) (xs0 : Vec F S1024x2048 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x2048) hz,
    View.ld_unit_zero (S := S1024x256) hz, View.ld_unit_zero (S := S2048x256) hz]

/-- … and the output block is a copy of that total. -/
theorem out_last (c : Dev nD) (i : grid0.Coords) (a3 : Memref sig .tc .vmem S1024x256 .bf16) (h3 : a3.IsWhole)
    (a4 : Memref sig .tc .vmem S2048x256 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x256 .bf16) (x1 : Vec F S2048x256 .bf16) (xs0 : Vec F S1024x2048 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1024x2048) hz,
    View.ld_unit_zero (S := S1024x256) hz, View.ld_unit_zero (S := S2048x256) hz]

/-- The first step: the scratch is cleared, and ends at the cleared contents plus the block product. -/
theorem scratch_first (c : Dev nD) (i : grid0.Coords) (a3 : Memref sig .tc .vmem S1024x256 .bf16) (h3 : a3.IsWhole)
    (a4 : Memref sig .tc .vmem S2048x256 .bf16) (h4 : a4.IsWhole) (a5 : Memref sig .tc .vmem S1024x2048 .f32) (h5 : a5.IsWhole)
    (a6 : Memref sig .tc .vmem S1024x2048 .f32) (h6 : a6.IsWhole) (hc0 : cond0_0 i) (hc1 : ¬cond0_1 i)
    (x0 : Vec F S1024x256 .bf16) (x1 : Vec F S2048x256 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, h6.read_unread, View.ld_unit_zero (S := S1024x2048) hz,
    View.ld_unit_zero (S := S1024x256) hz, View.ld_unit_zero (S := S2048x256) hz]

end Cert.KernelIdeal.Acc
end
-- ==== Proof.Steps.lean ====
/-
  The grid, point by point. The 344 points are numbered with the contraction step fastest: point n works on
  row block n / 86 of the left matrix, row block (n / 43) % 2 of the right matrix, and contraction step n % 43.
  A step-0 point starts a new total; every other point continues the total of the point before it, which has the
  same two row blocks; a step-42 point also writes the total to output block (n / 86, (n / 43) % 2).
  The input blocks are read off the two matrices as the region finds them.
-/
import proofs.«160336_j30021821399184_1_alg».proof.Proof.Pieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc
open Cert.KernelIdeal Cert.KernelIdeal.Gen
variable {F : FTy → Type} [FloatOps F]
variable (m : (ℓ : Loc nD τ sig) → Buf (Elt F) ℓ)

/-- Which block of each matrix a grid point works on. -/
theorem point_blocks : ∀ t : Fin cfg0.N,
    win0_0.index t (0 : Fin 2) = t.val / 86 ∧ win0_0.index t (1 : Fin 2) = t.val % 43
    ∧ win0_1.index t (0 : Fin 2) = t.val / 43 % 2 ∧ win0_1.index t (1 : Fin 2) = t.val % 43
    ∧ win0_2.index t (0 : Fin 2) = t.val / 86 ∧ win0_2.index t (1 : Fin 2) = t.val / 43 % 2 :=
  (by decide +kernel : ∀ t : Fin grid0.N, _)

/-- The left matrix (the activations, flattened to 4096 rows) and the right matrix (the dequantized weights) as
    the region finds them, and a point's block of each. -/
abbrev lhsArr (c : Dev nD) : Vec F S4096x11008 .bf16 := V m c main_v11
abbrev rhsArr (c : Dev nD) : Vec F S4096x11008 .bf16 := V m c main_v12
abbrev lhsBlk (c : Dev nD) (t : Fin cfg0.N) : Vec F S1024x256 .bf16 := iblk m c 0 t
abbrev rhsBlk (c : Dev nD) (t : Fin cfg0.N) : Vec F S2048x256 .bf16 := iblk m c 1 t

/-- Entry (p, r) of the left block at point t is entry (1024 · (t / 86) + p, 256 · (t % 43) + r) of the left matrix. -/
theorem lhsBlk_apply (c : Dev nD) (t : Fin cfg0.N) (p : Fin 1024) (r : Fin 256)
    (h1 : 1024 * (t.val / 86) + p.val < 4096) (h2 : 256 * (t.val % 43) + r.val < 11008) :
    lhsBlk m c t (ix2 p r) = lhsArr m c (ix2 ⟨1024 * (t.val / 86) + p.val, h1⟩ ⟨256 * (t.val % 43) + r.val, h2⟩) := by
  obtain ⟨e0, e1, -⟩ := point_blocks t
  show iblk m c 0 t (ix2 p r) = V m c main_v11 _
  unfold iblk
  rw [View.read_apply]
  show V m c main_v11 _ = V m c main_v11 _
  congr 1
  funext a
  apply Fin.ext
  match a with
  | ⟨0, _⟩ => show win0_0.index t (0 : Fin 2) * 1024 + 1 * p.val = 1024 * (t.val / 86) + p.val; rw [e0]; omega
  | ⟨1, _⟩ => show win0_0.index t (1 : Fin 2) * 256 + 1 * r.val = 256 * (t.val % 43) + r.val; rw [e1]; omega

/-- Entry (q, r) of the right block at point t is entry (2048 · ((t / 43) % 2) + q, 256 · (t % 43) + r) of the right matrix. -/
theorem rhsBlk_apply (c : Dev nD) (t : Fin cfg0.N) (q : Fin 2048) (r : Fin 256)
    (h1 : 2048 * (t.val / 43 % 2) + q.val < 4096) (h2 : 256 * (t.val % 43) + r.val < 11008) :
    rhsBlk m c t (ix2 q r) = rhsArr m c (ix2 ⟨2048 * (t.val / 43 % 2) + q.val, h1⟩ ⟨256 * (t.val % 43) + r.val, h2⟩) := by
  obtain ⟨-, -, e2, e3, -⟩ := point_blocks t
  show iblk m c 1 t (ix2 q r) = V m c main_v12 _
  unfold iblk
  rw [View.read_apply]
  show V m c main_v12 _ = V m c main_v12 _
  congr 1
  funext a
  apply Fin.ext
  match a with
  | ⟨0, _⟩ => show win0_1.index t (0 : Fin 2) * 2048 + 1 * q.val = 2048 * (t.val / 43 % 2) + q.val; rw [e2]; omega
  | ⟨1, _⟩ => show win0_1.index t (1 : Fin 2) * 256 + 1 * r.val = 256 * (t.val % 43) + r.val; rw [e3]; omega

/-- What the scratch holds after point n: the running total. -/
abbrev totalAt (c : Dev nD) (n : ℕ) (h : n < cfg0.N) : Vec F S1024x2048 .f32 := (outsAt0 m c n h).2

/-- A step-0 point starts the total from the cleared scratch. -/
theorem totalAt_first (c : Dev nD) (n : ℕ) (h : n < cfg0.N) (h0 : n % 43 = 0) :
    totalAt m c n h = k0_pay2 (k0_pay1 (F := F)) (lhsBlk m c ⟨n, h⟩) (rhsBlk m c ⟨n, h⟩) := by
  have h1 : ¬(⟨n, h⟩ : Fin cfg0.N).val % 43 = 42 := by dsimp only; omega
  show (outsAt0 m c (⟨n, h⟩ : Fin cfg0.N).val (⟨n, h⟩ : Fin cfg0.N).isLt).2 = _
  rw [outsAt0_A m c ⟨n, h⟩ h0 h1]
  dsimp only
  exact scratch_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    scM0_0 (Memref.isWhole_whole _) ((hcond0_0 ⟨n, h⟩).mpr h0) (fun hh => h1 ((hcond0_1 ⟨n, h⟩).mp hh)) (iblk m c 0 ⟨n, h⟩) (iblk m c 1 ⟨n, h⟩)

/-- Every other point adds its block product to the total of the point before. -/
theorem totalAt_next (c : Dev nD) (n : ℕ) (h : n + 1 < cfg0.N) (h0 : ¬(n + 1) % 43 = 0) :
    totalAt m c (n + 1) h = k0_pay2 (totalAt m c n (Nat.lt_of_succ_lt h)) (lhsBlk m c ⟨n + 1, h⟩) (rhsBlk m c ⟨n + 1, h⟩) := by
  show (outsAt0 m c (⟨n + 1, h⟩ : Fin cfg0.N).val (⟨n + 1, h⟩ : Fin cfg0.N).isLt).2 = _
  by_cases h1 : (n + 1) % 43 = 42
  · rw [outsAt0_C m c ⟨n + 1, h⟩ h0 h1]
    dsimp only
    exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩)
      (outsAt0 m c n (Nat.lt_of_succ_lt h)).2
  · rw [outsAt0_B m c ⟨n + 1, h⟩ h0 h1]
    dsimp only
    exact scratch_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩)
      (outsAt0 m c n (Nat.lt_of_succ_lt h)).2

/-- At a step-42 point the output block is a copy of the total. -/
theorem outAt_last (c : Dev nD) (t : Fin cfg0.N) (h1 : t.val % 43 = 42) :
    (outsAt0 m c t.val t.isLt).1 = totalAt m c t.val t.isLt := by
  have h0 : ¬t.val % 43 = 0 := by omega
  show _ = (outsAt0 m c t.val t.isLt).2
  rw [outsAt0_C m c t h0 h1]
  dsimp only
  rw [out_last, scratch_last]

end Cert.KernelIdeal.Acc

end
-- ==== Proof.Payload.lean ====
/-
  The body's arithmetic at one entry, over the extended reals. The matrix unit multiplies a 1024 × 256 block by
  the transpose of a 2048 × 256 block into a zero accumulator: entry (p, q) is the sum over the 256 shared
  columns r of left (p, r) times right (q, r). The body adds that to the scratch's earlier contents; the cleared
  scratch holds zero everywhere.
-/
import proofs.«160336_j30021821399184_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Acc
open Cert.KernelIdeal Cert.KernelIdeal.Gen

/-- The left operand is read at (output row, contraction index) … -/
theorem lhs_row (j : S1024x2048.Idx) (k : dot_S1024x256_S2048x256_S1024x2048_1_1_0_0_n_n.contr.Idx) :
    (dot_S1024x256_S2048x256_S1024x2048_1_1_0_0_n_n.lhsIdx j k 0).val = (j 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_col (j : S1024x2048.Idx) (k : dot_S1024x256_S2048x256_S1024x2048_1_1_0_0_n_n.contr.Idx) :
    (dot_S1024x256_S2048x256_S1024x2048_1_1_0_0_n_n.lhsIdx j k 1).val = (k ⟨0, by decide⟩).val :=
  dot_S1024x256_S2048x256_S1024x2048_1_1_0_0_n_n.lhsIdx_val_of_single rfl j k
/-- … and the right operand at (output column, contraction index): the product is with the transpose. -/
theorem rhs_row (j : S1024x2048.Idx) (k : dot_S1024x256_S2048x256_S1024x2048_1_1_0_0_n_n.contr.Idx) :
    (dot_S1024x256_S2048x256_S1024x2048_1_1_0_0_n_n.rhsIdx j k 0).val = (j 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_col (j : S1024x2048.Idx) (k : dot_S1024x256_S2048x256_S1024x2048_1_1_0_0_n_n.contr.Idx) :
    (dot_S1024x256_S2048x256_S1024x2048_1_1_0_0_n_n.rhsIdx j k 1).val = (k ⟨0, by decide⟩).val :=
  dot_S1024x256_S2048x256_S1024x2048_1_1_0_0_n_n.rhsIdx_val_of_single rfl j k

/-- The block product at entry (p, q): the sum over the shared columns. -/
theorem blockProduct_apply (v4 : FVec Ideal S1024x256 .bf16) (v6 : FVec Ideal S2048x256 .bf16) (p : Fin 1024) (q : Fin 2048) :
    (matmul (F := Ideal) (φ₁ := .bf16) (φ₂ := .bf16) dot_S1024x256_S2048x256_S1024x2048_1_1_0_0_n_n none v4 v6 (constant (F := Ideal) S1024x2048 .f32 0x00000000#32) (ix2 p q) : EReal)
      = ∑ r : Fin 256, (v4 (ix2 p r) : EReal) * (v6 (ix2 q r) : EReal) := by
  simp only [matmul]
  rw [Ideal.matmul_constant_zero_apply, ← Equiv.sum_comp (contrEquiv1 dot_S1024x256_S2048x256_S1024x2048_1_1_0_0_n_n 256 rfl rfl).symm]
  refine Finset.sum_congr rfl fun r _ => ?_
  have hr := contrEquiv1_symm_val dot_S1024x256_S2048x256_S1024x2048_1_1_0_0_n_n 256 rfl rfl r
  have el : dot_S1024x256_S2048x256_S1024x2048_1_1_0_0_n_n.lhsIdx (ix2 p q) ((contrEquiv1 dot_S1024x256_S2048x256_S1024x2048_1_1_0_0_n_n 256 rfl rfl).symm r) = ix2 p r := funext fun a => Fin.ext (by
    match a with
    | ⟨0, _⟩ => exact lhs_row _ _
    | ⟨1, _⟩ => exact (lhs_col _ _).trans hr)
  have er : dot_S1024x256_S2048x256_S1024x2048_1_1_0_0_n_n.rhsIdx (ix2 p q) ((contrEquiv1 dot_S1024x256_S2048x256_S1024x2048_1_1_0_0_n_n 256 rfl rfl).symm r) = ix2 q r := funext fun a => Fin.ext (by
    match a with
    | ⟨0, _⟩ => exact rhs_row _ _
    | ⟨1, _⟩ => exact (rhs_col _ _).trans hr)
  rw [el, er]

/-- One accumulation step at entry (p, q): the earlier contents plus the block product. -/
theorem step_apply (v3 : Vec Ideal S1024x2048 .f32) (v4 : Vec Ideal S1024x256 .bf16) (v6 : Vec Ideal S2048x256 .bf16)
    (p : Fin 1024) (q : Fin 2048) :
    (k0_pay2 (F := Ideal) v3 v4 v6 (ix2 p q) : EReal)
      = (v3 (ix2 p q) : EReal) + ∑ r : Fin 256, (v4 (ix2 p r) : EReal) * (v6 (ix2 q r) : EReal) := by
  unfold k0_pay2
  simp only [shapeCast_self]
  rw [addf_apply]
  exact congrArg (fun z : EReal => (v3 (ix2 p q) : EReal) + z) (blockProduct_apply v4 v6 p q)

/-- The cleared scratch holds zero. -/
theorem cleared_apply (j : S1024x2048.Idx) : (k0_pay1 (F := Ideal) j : EReal) = 0 := by
  unfold k0_pay1
  simp only [shapeCast_self]
  show Ideal.ofBits .f32 0x00000000#32 = 0
  exact Ideal.ofBits_zero_f32

end Cert.KernelIdeal.Acc

end
-- ==== Proof.BlockedSum.lean ====
/-
  Sums taken block by block. A matrix product whose contraction axis is cut into consecutive blocks of equal
  width, the blocks' partial products added one after another into an accumulator that starts at zero, is the
  product over the whole axis: addition of extended reals is commutative and associative, so the running total
  after `n` blocks is the sum of the first `w * n` terms, whatever the terms are (no finiteness is used).
  Entries of a matrix are read here by natural-number coordinates, zero outside the matrix, so that a block's
  offset `w * k + r` is plain arithmetic.
-/
import Idealize.ShloMosaic.PureOps.Ideal
import Idealize.ShloMosaic.Lib.ValueIdx

noncomputable section

open scoped BigOperators
open Idealize.ShloMosaic Idealize.ShloMosaic.ValueIdx

namespace Cert.BlockedSum

/-- The sum of the first `n` consecutive blocks of width `w` of a sequence: block `k` holds the terms
    `w * k`, …, `w * k + (w - 1)`. -/
def blockSum (w : ℕ) (f : ℕ → EReal) (n : ℕ) : EReal :=
  ∑ k ∈ Finset.range n, ∑ r ∈ Finset.range w, f (w * k + r)

/-- One more block: the running total plus that block's own sum. -/
theorem blockSum_succ (w : ℕ) (f : ℕ → EReal) (n : ℕ) :
    blockSum w f (n + 1) = blockSum w f n + ∑ r ∈ Finset.range w, f (w * n + r) :=
  Finset.sum_range_succ _ _

/-- The first block alone, added to zero. -/
theorem blockSum_one (w : ℕ) (f : ℕ → EReal) :
    blockSum w f 1 = 0 + ∑ r ∈ Finset.range w, f (w * 0 + r) := by
  rw [blockSum_succ]; rfl

/-- Regrouping: `n` blocks of width `w` are the first `w * n` terms. -/
theorem blockSum_eq_sum (w : ℕ) (f : ℕ → EReal) (n : ℕ) :
    blockSum w f n = ∑ i ∈ Finset.range (w * n), f i := by
  induction n with
  | zero => simp [blockSum]
  | succ n ih => rw [blockSum_succ, ih, Nat.mul_succ, Finset.sum_range_add]

/-- Entry `(r, n)` of a matrix by natural coordinates; zero outside the matrix. -/
def entry {R C : ℕ} (A : (⟨2, ![R, C]⟩ : Shape).Idx → EReal) (r n : ℕ) : EReal :=
  if h : r < R ∧ n < C then A (ix2 ⟨r, h.1⟩ ⟨n, h.2⟩) else 0

theorem entry_eq {R C : ℕ} (A : (⟨2, ![R, C]⟩ : Shape).Idx → EReal) (r n : ℕ) (hr : r < R) (hn : n < C) :
    entry A r n = A (ix2 ⟨r, hr⟩ ⟨n, hn⟩) := dif_pos ⟨hr, hn⟩

/-- Term `n` of the product of row `r` of `A` with row `o` of `B` (both matrices have the contraction axis
    second: `A · Bᵀ`). -/
def term {R O C : ℕ} (A : (⟨2, ![R, C]⟩ : Shape).Idx → EReal) (B : (⟨2, ![O, C]⟩ : Shape).Idx → EReal)
    (r o : ℕ) (n : ℕ) : EReal := entry A r n * entry B o n

/-- Entry `(r, o)` of `A · Bᵀ`: the sum over the whole contraction axis. -/
def rowDot {R O C : ℕ} (A : (⟨2, ![R, C]⟩ : Shape).Idx → EReal) (B : (⟨2, ![O, C]⟩ : Shape).Idx → EReal)
    (r : Fin R) (o : Fin O) : EReal := ∑ n : Fin C, A (ix2 r n) * B (ix2 o n)

/-- All the blocks of the contraction axis, summed block by block, give the entry of `A · Bᵀ`. -/
theorem blockSum_term_eq_rowDot {R O C : ℕ} (A : (⟨2, ![R, C]⟩ : Shape).Idx → EReal)
    (B : (⟨2, ![O, C]⟩ : Shape).Idx → EReal) (w nb : ℕ) (hC : w * nb = C) (r : Fin R) (o : Fin O) :
    blockSum w (term A B r.val o.val) nb = rowDot A B r o := by
  rw [blockSum_eq_sum, hC, Finset.sum_range]
  unfold rowDot term
  exact Finset.sum_congr rfl fun n _ => by rw [entry_eq A _ _ r.isLt n.isLt, entry_eq B _ _ o.isLt n.isLt]

/-- One block's own sum, over `Fin w` as a matrix unit's contraction writes it. -/
theorem block_sum_fin (w : ℕ) (f : ℕ → EReal) (k : ℕ) :
    ∑ r ∈ Finset.range w, f (w * k + r) = ∑ r : Fin w, f (w * k + r.val) := Finset.sum_range _

end Cert.BlockedSum

end
-- ==== Proof.Total.lean ====
/-
  The running total, in closed form. After grid point n the scratch holds, at entry (p, q), the sum of the first
  n % 43 + 1 blocks (of 256 terms each) of the product of row 1024 · (n / 86) + p of the left matrix with row
  2048 · ((n / 43) % 2) + q of the right matrix: a step-0 point starts from zero, every other point adds its own
  block of 256 terms to the total of the point before, whose rows are the same. By induction on the point.
-/
import proofs.«160336_j30021821399184_1_alg».proof.Proof.Steps
import proofs.«160336_j30021821399184_1_alg».proof.Proof.Payload
import proofs.«160336_j30021821399184_1_alg».proof.Proof.BlockedSum

noncomputable section

open scoped BigOperators
open Idealize.ShloMosaic Idealize.ShloMosaic.TcCoe Idealize.SL.Sem Idealize.ShloMosaic.ValueIdx
open Cert.BlockedSum

namespace Cert.KernelIdeal.Acc
open Cert.KernelIdeal Cert.KernelIdeal.Gen
variable (m : (ℓ : Loc nD τ sig) → Buf (Elt Ideal) ℓ)

/-- The terms of the product of the two rows that entry (p, q) of point n's blocks belongs to. -/
abbrev rowTerms (c : Dev nD) (n : ℕ) (p : Fin 1024) (q : Fin 2048) : ℕ → EReal :=
  term (lhsArr m c) (rhsArr m c) (1024 * (n / 86) + p.val) (2048 * (n / 43 % 2) + q.val)

/-- A point's block product at entry (p, q) is block n % 43 of those terms. -/
theorem blockProduct_eq (c : Dev nD) (n : ℕ) (h : n < cfg0.N) (p : Fin 1024) (q : Fin 2048) :
    ∑ r : Fin 256, (lhsBlk m c ⟨n, h⟩ (ix2 p r) : EReal) * (rhsBlk m c ⟨n, h⟩ (ix2 q r) : EReal)
      = ∑ r ∈ Finset.range 256, rowTerms m c n p q (256 * (n % 43) + r) := by
  have hN : n < 344 := lt_of_lt_of_eq h (show cfg0.N = 344 from N_0)
  rw [block_sum_fin]
  refine Finset.sum_congr rfl fun r _ => ?_
  have hp := p.isLt
  have hq := q.isLt
  have hr := r.isLt
  have a1 : 1024 * (n / 86) + p.val < 4096 := by omega
  have a2 : 2048 * (n / 43 % 2) + q.val < 4096 := by omega
  have a3 : 256 * (n % 43) + r.val < 11008 := by omega
  show _ = entry (lhsArr m c) _ _ * entry (rhsArr m c) _ _
  rw [entry_eq (lhsArr m c) _ _ a1 a3, entry_eq (rhsArr m c) _ _ a2 a3,
    lhsBlk_apply m c ⟨n, h⟩ p r a1 a3, rhsBlk_apply m c ⟨n, h⟩ q r a2 a3]

/-- THE INVARIANT: the total after point n is the first n % 43 + 1 blocks of the rows' product. -/
theorem totalAt_eq (c : Dev nD) : ∀ (n : ℕ) (h : n < cfg0.N) (p : Fin 1024) (q : Fin 2048),
    (totalAt m c n h (ix2 p q) : EReal) = blockSum 256 (rowTerms m c n p q) (n % 43 + 1)
  | 0, h, p, q => by
    rw [totalAt_first m c 0 h rfl, step_apply, cleared_apply, blockProduct_eq m c 0 h p q]
    exact (blockSum_one 256 (rowTerms m c 0 p q)).symm
  | n + 1, h, p, q => by
    have hN : n + 1 < 344 := lt_of_lt_of_eq h (show cfg0.N = 344 from N_0)
    by_cases h0 : (n + 1) % 43 = 0
    · rw [totalAt_first m c (n + 1) h h0, step_apply, cleared_apply, blockProduct_eq m c (n + 1) h p q, h0]
      exact (blockSum_one 256 (rowTerms m c (n + 1) p q)).symm
    · have e1 : (n + 1) / 86 = n / 86 := by omega
      have e2 : (n + 1) / 43 % 2 = n / 43 % 2 := by omega
      have e3 : (n + 1) % 43 = n % 43 + 1 := by omega
      rw [totalAt_next m c n h h0, step_apply, totalAt_eq c n (Nat.lt_of_succ_lt h) p q,
        blockProduct_eq m c (n + 1) h p q]
      have er : rowTerms m c (n + 1) p q = rowTerms m c n p q := by
        show term _ _ _ _ = term _ _ _ _
        rw [e1, e2]
      rw [er, e3]
      exact (blockSum_succ 256 (rowTerms m c n p q) (n % 43 + 1)).symm

end Cert.KernelIdeal.Acc

end
-- ==== Proof.Result.lean ====
/-
  From the running total to the result. The output block of a step-42 point is the total of all 43 blocks, that
  is, the whole dot product of the two rows: the output blocks are blocks of the product of the left matrix with
  the transpose of the right one. The eight output blocks tile the 4096 × 4096 array, so after the region the
  array IS that product; the host then lays it out as 2 × 2048 × 4096.
-/
import proofs.«160336_j30021821399184_1_alg».proof.Proof.Total
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)
open Cert.BlockedSum

namespace Cert.KernelIdeal.Acc
open Cert.KernelIdeal Cert.KernelIdeal.Gen
variable (m : (ℓ : Loc nD τ sig) → Buf (Elt Ideal) ℓ) (ρ : Dev nD → PrngReg)

/-- The product of the left matrix with the transpose of the right one. -/
abbrev product (c : Dev nD) : Vec Ideal S4096x4096 .f32 := fun j => rowDot (lhsArr m c) (rhsArr m c) (j 0) (j 1)

/-- After a step-42 point the total at block entry y is the product at the matching array entry. -/
theorem total_last_eq (c : Dev nD) (n : ℕ) (h : n < cfg0.N) (h42 : n % 43 = 42) (y : S1024x2048.Idx) (i : S4096x4096.Idx)
    (hi0 : (i 0).val = 1024 * (n / 86) + (y 0).val) (hi1 : (i 1).val = 2048 * (n / 43 % 2) + (y 1).val) :
    (totalAt m c n h y : EReal) = product m c i := by
  obtain ⟨p, q, rfl⟩ : ∃ (p : Fin 1024) (q : Fin 2048), y = ix2 p q := ⟨y 0, y 1, eq_ix2 y⟩
  rw [totalAt_eq, h42]
  show blockSum 256 (term (lhsArr m c) (rhsArr m c) (1024 * (n / 86) + p.val) (2048 * (n / 43 % 2) + q.val)) 43
    = rowDot (lhsArr m c) (rhsArr m c) (i 0) (i 1)
  have e0 : 1024 * (n / 86) + p.val = (i 0).val := hi0.symm
  have e1 : 2048 * (n / 43 % 2) + q.val = (i 1).val := hi1.symm
  rw [e0, e1]
  exact blockSum_term_eq_rowDot (lhsArr m c) (rhsArr m c) 256 43 rfl (i 0) (i 1)

/-- What a step-42 point writes back is its block of the product. -/
theorem flushed_eq (c : Dev nD) (t : Fin cfg0.N) (hf : (cfg0.win 2).flush t = true) :
    (dats m 0 c).flushed 2 t = ((cfg0.win 2).blk t).view.read (Elt Ideal) (product m c) := by
  have h42 : t.val % 43 = 42 := (flush0_2 t).mp hf
  obtain ⟨-, -, -, -, e4, e5⟩ := point_blocks t
  show (cfg0.win 2).cut (grid0.coords t) ((dats m 0 c).after 2 t) = _
  rw [after0_2, outAt_last m c t h42]
  funext j
  show (totalAt m c t.val t.isLt j : EReal) = product m c (((cfg0.win 2).blk t).view.emb j)
  exact total_last_eq m c t.val t.isLt h42 j (((cfg0.win 2).blk t).view.emb j)
    (by show win0_2.index t (0 : Fin 2) * 1024 + 1 * (j 0).val = 1024 * (t.val / 86) + (j 0).val; rw [e4]; omega)
    (by show win0_2.index t (1 : Fin 2) * 2048 + 1 * (j 1).val = 2048 * (t.val / 43 % 2) + (j 1).val; rw [e5]; omega)

/-- Every entry of the array lies in the block some step-42 point writes back. -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 344 := N_0
  obtain ⟨t, ht⟩ : ∃ t : Fin cfg0.N, t.val = ((i 0).val / 1024 * 2 + (i 1).val / 2048) * 43 + 42 :=
    ⟨⟨((i 0).val / 1024 * 2 + (i 1).val / 2048) * 43 + 42, by rw [hN]; omega⟩, rfl⟩
  obtain ⟨-, -, -, -, e4, e5⟩ := point_blocks t
  refine ⟨t, (flush0_2 t).mpr (by omega), ?_⟩
  show i ∈ ((View.whole main_v13).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 2048 ≤ (i 1).val ∧ (i 1).val < win0_2.index t (1 : Fin 2) * 2048 + 2048
    rw [e5]; omega

/-- So the output array ends holding the product. -/
theorem final_product (c : Dev nD) : (dats m 0 c).arrAt 2 cfg0.N = product m c :=
  (dats m 0 c).arrAt_eq_of_cover 2 (product m c) (flushed_eq m c) cover

/-- The result: the product laid out as 2 × 2048 × 4096. -/
abbrev result (c : Dev nD) : Buf (Elt Ideal) ((c : Thread nD τ).loc main_v14) :=
  shapeCast S2x2048x4096 (product m c) shapeCasts_S4096x4096_S2x2048x4096

/-- The host's last operation lays out what the region left in the output array. -/
theorem tail_eq (c : Dev nD) : Pipeline.afterTail₀ cfgs (dats m) 0 (V0 m) [hostOps1] c main_v14 = result m c := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v13)
      = product m c :=
    (Pipeline.withArrays_arr spec0 launch0.win.arr_inj c (V0 m c) (fun w => (dats m 0 c).arrAt w cfg0.N) 2).trans (final_product m c)
  rw [e]
  rfl

/-- THE KERNEL'S RUN, read: every weakly fair execution ends with the result array at the product laid out as
    2 × 2048 × 4096, and the four arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.Inputs.lean ====
/-
  The two matrices the region works on, in terms of the arguments. The left one is the activations x with their
  first two axes flattened (row 2048 · b + s is x[b, s, ·]); the right one is the dequantized weight matrix: the
  codebook rows the (wrapped) indices select, laid out as 4096 × 11008 and scaled row by row. Both are narrowed
  to sixteen bits before the region, which changes no value over the extended reals.
-/
import proofs.«160336_j30021821399184_1_alg».proof.Proof.Steps
import Idealize.ShloMosaic.Lib.StableHlo.Run

noncomputable section

open Idealize.ShloMosaic Idealize.ShloMosaic.TcCoe Idealize.SL.Sem Idealize.ShloMosaic.ValueIdx

namespace Cert.KernelIdeal.Acc
open Cert.KernelIdeal Cert.KernelIdeal.Gen
variable {F : FTy → Type} [FloatOps F]
variable (m : (ℓ : Loc nD τ sig) → Buf (Elt F) ℓ)

/-- The dequantized weights: negative indices wrap by the codebook's length, each index selects a codebook row of
    eight entries, the rows are laid out as 4096 × 11008, and row o is scaled by scales[o]. -/
def weights (idx : (⟨S5636096, .i32⟩ : BufTy).Contents (Elt F)) (cb : (⟨S32768x8, .f32⟩ : BufTy).Contents (Elt F))
    (sc : (⟨S4096x1, .f32⟩ : BufTy).Contents (Elt F)) : (⟨S4096x11008, .f32⟩ : BufTy).Contents (Elt F) :=
  mulf (shapeCast _ (Host.gather gather_S32768x8_S5636096x1_S5636096x8_1_0_n_n_0_1_18 cb
      (broadcastInDim S5636096x1 ![0] bcast_S5636096_S5636096x1_0
        (select (cmpi .slt idx (broadcastInDim S5636096 ![] bcast_S_S5636096 (constantI S_ 32 0#32)))
          (addi idx (broadcastInDim S5636096 ![] bcast_S_S5636096 (constantI S_ 32 32768#32))) idx)))
      shapeCasts_S5636096x8_S4096x11008)
    (broadcastInDim S4096x11008 ![0, 1] bcast_S4096x1_S4096x11008_0_1 sc)

/-- The left matrix is x flattened to 4096 rows (and narrowed). -/
theorem lhsArr_eq (c : Dev nD) :
    lhsArr m c = truncf .bf16 (shapeCast S4096x11008 (m ((c : Thread nD τ).loc main_arg0)) shapeCasts_S2x2048x11008_S4096x11008) bitsLt_bf16_f32 := by
  show StableHlo.after hostOps0 (fun b => m (c, b)) (Proc.devRef .tc main_v11) = _
  after_results
  rfl

/-- The right matrix is the dequantized weights (narrowed). -/
theorem rhsArr_eq (c : Dev nD) :
    rhsArr m c = truncf .bf16 (weights (m ((c : Thread nD τ).loc main_arg1)) (m ((c : Thread nD τ).loc main_arg2)) (m ((c : Thread nD τ).loc main_arg3))) bitsLt_bf16_f32 := by
  show StableHlo.after hostOps0 (fun b => m (c, b)) (Proc.devRef .tc main_v12) = _
  after_results
  rfl

end Cert.KernelIdeal.Acc

end
-- ==== Proof.Bridge.lean ====
/-
  The two programs compute one function. The reference contracts x[b, s, ·] with row o of the dequantized weights
  over all 11008 columns at once; the kernel's result at (b, s, o) is entry (2048 · b + s, o) of the product of the
  flattened activations with the transposed weights, which is the same sum, term by term: flattening moves
  x[b, s, n] to row 2048 · b + s, and the weights are the same matrix on both sides.
-/
import proofs.«160336_j30021821399184_1_alg».proof.Proof.Inputs
import proofs.«160336_j30021821399184_1_alg».proof.Proof.BlockedSum
import proofs.«160336_j30021821399184_1_alg».proof.Proof.Gen.ReferenceIdeal.Read

noncomputable section

open scoped BigOperators
open Idealize.ShloMosaic Idealize.ShloMosaic.TcCoe Idealize.ShloMosaic.ValueIdx
open Cert.BlockedSum

namespace Cert.Bridge

open Cert.KernelIdeal.Facts₀ in
/-- The kernel's result as a function of the four arguments: the product of the flattened, narrowed activations
    with the transposed, narrowed weights, laid out as 2 × 2048 × 4096. -/
def kernelResult (x : (⟨Cert.KernelIdeal.S2x2048x11008, .f32⟩ : BufTy).Contents (Elt Ideal))
    (idx : (⟨Cert.KernelIdeal.S5636096, .i32⟩ : BufTy).Contents (Elt Ideal))
    (cb : (⟨Cert.KernelIdeal.S32768x8, .f32⟩ : BufTy).Contents (Elt Ideal))
    (sc : (⟨Cert.KernelIdeal.S4096x1, .f32⟩ : BufTy).Contents (Elt Ideal)) :
    (⟨Cert.KernelIdeal.S2x2048x4096, .f32⟩ : BufTy).Contents (Elt Ideal) :=
  shapeCast Cert.KernelIdeal.S2x2048x4096
    (fun j : Cert.KernelIdeal.S4096x4096.Idx =>
      rowDot (truncf (F := Ideal) .bf16 (shapeCast Cert.KernelIdeal.S4096x11008 x shapeCasts_S2x2048x11008_S4096x11008) bitsLt_bf16_f32)
        (truncf (F := Ideal) .bf16 (Cert.KernelIdeal.Acc.weights idx cb sc) bitsLt_bf16_f32) (j 0) (j 1))
    shapeCasts_S4096x4096_S2x2048x4096

/-- The weights are the same matrix in both programs: the same operations on the same arguments. -/
theorem weights_eq (idx : (⟨Cert.KernelIdeal.S5636096, .i32⟩ : BufTy).Contents (Elt Ideal))
    (cb : (⟨Cert.KernelIdeal.S32768x8, .f32⟩ : BufTy).Contents (Elt Ideal))
    (sc : (⟨Cert.KernelIdeal.S4096x1, .f32⟩ : BufTy).Contents (Elt Ideal)) :
    Cert.KernelIdeal.Acc.weights (F := Ideal) idx cb sc = Cert.ReferenceIdeal.Read.val_main_v9 (F := Ideal) idx cb sc := rfl

open Cert.KernelIdeal.Facts₀ in
/-- Flattening: row 2048 · b + s of the flattened activations is x[b, s, ·]. -/
theorem flat_apply (x : (⟨Cert.KernelIdeal.S2x2048x11008, .f32⟩ : BufTy).Contents (Elt Ideal)) (b : Fin 2) (s : Fin 2048) (n : Fin 11008)
    (h : 2048 * b.val + s.val < 4096) :
    shapeCast Cert.KernelIdeal.S4096x11008 x shapeCasts_S2x2048x11008_S4096x11008 (ix2 ⟨2048 * b.val + s.val, h⟩ n) = x (ix3 b s n) :=
  shapeCast_apply x shapeCasts_S2x2048x11008_S4096x11008 (ix2 ⟨2048 * b.val + s.val, h⟩ n) (ix3 b s n) (by
    rewrite [Shape.rowMajor_val_three, Shape.rowMajor_val_two]
    show (b.val * 2048 + s.val) * 11008 + n.val = (2048 * b.val + s.val) * 11008 + n.val
    omega)

/-- The reference's result is the kernel's. -/
theorem result_eq (x : (⟨Cert.KernelIdeal.S2x2048x11008, .f32⟩ : BufTy).Contents (Elt Ideal))
    (idx : (⟨Cert.KernelIdeal.S5636096, .i32⟩ : BufTy).Contents (Elt Ideal))
    (cb : (⟨Cert.KernelIdeal.S32768x8, .f32⟩ : BufTy).Contents (Elt Ideal))
    (sc : (⟨Cert.KernelIdeal.S4096x1, .f32⟩ : BufTy).Contents (Elt Ideal)) :
    Cert.ReferenceIdeal.Read.val_main_v10 (F := Ideal) x idx cb sc = kernelResult x idx cb sc := by
  funext i
  obtain ⟨b, s, o, rfl⟩ : ∃ (b : Fin 2) (s : Fin 2048) (o : Fin 4096), i = ix3 b s o := ⟨i 0, i 1, i 2, eq_ix3 i⟩
  have hb := b.isLt
  have hs := s.isLt
  have hrow : 2048 * b.val + s.val < 4096 := by omega
  rw [Cert.ReferenceIdeal.Read.val_main_v10_apply]
  unfold kernelResult
  rw [shapeCast_apply _ Cert.KernelIdeal.Facts₀.shapeCasts_S4096x4096_S2x2048x4096 (ix3 b s o) (ix2 ⟨2048 * b.val + s.val, hrow⟩ o) (by
    rewrite [Shape.rowMajor_val_two, Shape.rowMajor_val_three]
    show (2048 * b.val + s.val) * 4096 + o.val = (b.val * 2048 + s.val) * 4096 + o.val
    omega)]
  show _ = rowDot _ _ ⟨2048 * b.val + s.val, hrow⟩ o
  unfold rowDot
  refine Finset.sum_congr rfl fun n _ => ?_
  rw [truncf_apply, truncf_apply, flat_apply x b s n hrow, weights_eq]
  have el : Cert.ReferenceIdeal.Read.lidx_main_v10 (ix3 b s o) n = ix3 b s n := funext fun a => Fin.ext (by
    match a with
    | ⟨0, _⟩ => rfl
    | ⟨1, _⟩ => rfl
    | ⟨2, _⟩ => rfl)
  have er : Cert.ReferenceIdeal.Read.ridx_main_v10 (ix3 b s o) n = ix2 o n := funext fun a => Fin.ext (by
    match a with
    | ⟨0, _⟩ => rfl
    | ⟨1, _⟩ => rfl)
  rw [el, er]

end Cert.Bridge

end
-- ==== Proof.Agree.lean ====
/-
  The kernel's result as a function of its four arguments: the product the region leaves, with the two matrices
  written out as the host prefix computes them.
-/
import proofs.«160336_j30021821399184_1_alg».proof.Proof.Result
import proofs.«160336_j30021821399184_1_alg».proof.Proof.Bridge

noncomputable section

open Idealize.ShloMosaic Idealize.ShloMosaic.TcCoe Idealize.SL.Sem
open Cert.BlockedSum

namespace Cert.KernelIdeal.Acc
open Cert.KernelIdeal Cert.KernelIdeal.Gen
variable (m : (ℓ : Loc nD τ sig) → Buf (Elt Ideal) ℓ)

theorem result_eq_kernelResult (c : Dev nD) :
    result m c = Cert.Bridge.kernelResult (m ((c : Thread nD τ).loc main_arg0)) (m ((c : Thread nD τ).loc main_arg1))
      (m ((c : Thread nD τ).loc main_arg2)) (m ((c : Thread nD τ).loc main_arg3)) := by
  show shapeCast S2x2048x4096 (fun j : S4096x4096.Idx => rowDot (lhsArr m c) (rhsArr m c) (j 0) (j 1))
      shapeCasts_S4096x4096_S2x2048x4096 = _
  rw [lhsArr_eq m c, rhsArr_eq m c]
  rfl

end Cert.KernelIdeal.Acc

end
-- ==== Proof.lean ====
/-
  A vector-quantized linear layer: the weight matrix W (4096 × 11008) is the codebook rows the indices select,
  scaled row by row, and the result is x · Wᵀ for activations x of shape 2 × 2048 × 11008.

  The reference contracts each x[b, s, ·] with each row of W in one sum over the 11008 columns. The kernel
  flattens x to 4096 rows, narrows both matrices to sixteen bits (no change of value over the extended reals),
  and computes the product tile by tile: for each of the 4 × 2 output tiles it walks the 43 blocks of 256 columns,
  clearing a scratch total at the first block, adding each block's partial product to it, and copying the total
  to the output tile after the last block; the host then restores the 2 × 2048 × 4096 layout.

  Why the two agree: the total after k blocks is the sum of the first 256 · k terms of the row-by-row product
  (addition of extended reals is commutative and associative, so regrouping a finite sum needs no finiteness of
  the inputs), 43 blocks of 256 are all 11008 terms, the eight tiles cover the output array, and the weights
  are built by the same operations from the same arguments in both programs.

  The three runs are the generated frames (kernel, idealized kernel) and the generated run of the reference;
  the idealization rewrote nothing, so that claim is trivial.
-/
import proofs.«160336_j30021821399184_1_alg».proof.Defs
import proofs.«160336_j30021821399184_1_alg».proof.Proof.Gen.Kernel
import proofs.«160336_j30021821399184_1_alg».proof.Proof.Gen.Kernel.Skeleton
import proofs.«160336_j30021821399184_1_alg».proof.Proof.Gen.Kernel.Launch
import proofs.«160336_j30021821399184_1_alg».proof.Proof.Gen.Kernel.Points
import proofs.«160336_j30021821399184_1_alg».proof.Proof.Gen.Kernel.Frame
import proofs.«160336_j30021821399184_1_alg».proof.Proof.Gen.KernelIdeal
import proofs.«160336_j30021821399184_1_alg».proof.Proof.Gen.KernelIdeal.Skeleton
import proofs.«160336_j30021821399184_1_alg».proof.Proof.Gen.KernelIdeal.Launch
import proofs.«160336_j30021821399184_1_alg».proof.Proof.Gen.KernelIdeal.Points
import proofs.«160336_j30021821399184_1_alg».proof.Proof.Gen.KernelIdeal.Frame
import proofs.«160336_j30021821399184_1_alg».proof.Proof.Gen.ReferenceIdeal
import proofs.«160336_j30021821399184_1_alg».proof.Proof.Gen.Pre_finite_inputs
import proofs.«160336_j30021821399184_1_alg».proof.Proof.Gen.ReferenceIdeal.Run
import proofs.«160336_j30021821399184_1_alg».proof.Proof.Gen.ReferenceIdeal.Read
import proofs.«160336_j30021821399184_1_alg».proof.Proof.Agree
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is thirteen host operations; its run keeps the arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over the extended reals both programs end with x · Wᵀ: the kernel's tiled, blocked product and the
    reference's single contraction are the same sums. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq (F := Ideal), (hagree c).1, (hagree c).2.1, (hagree c).2.2.1, (hagree c).2.2.2,
    Cert.Bridge.result_eq]
  exact (Cert.KernelIdeal.Acc.result_eq_kernelResult m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
